-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x32 : Shape := ⟨4, ![16, 512, 32, 32]⟩
abbrev S1536x512 : Shape := ⟨2, ![1536, 512]⟩
abbrev S512x512 : Shape := ⟨2, ![512, 512]⟩
abbrev S_ : Shape := ⟨0, ![]⟩

class Facts : Prop where
  bcast_S_S16x512x32x32 : S_.BroadcastsInDim S16x512x32x32 (![] : Fin 0 → Fin S16x512x32x32.rank)
  reducesTo_S16x512x32x32_S_d0_1_2_3 : S16x512x32x32.ReducesTo [0, 1, 2, 3] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16x512x32x32 .f32) (main_arg1 : FVec F S1536x512 .f32) (main_arg2 : FVec F S512x512 .f32) : IVec S_ 1 :=
  let main_v0 : FVec F S16x512x32x32 .f32 := Host.absf main_arg0
  let main_cst : FVec F S_ .f32 := constant S_ .f32 0x7F800000#32
  let main_v1 : FVec F S16x512x32x32 .f32 := broadcastInDim S16x512x32x32 ![] bcast_S_S16x512x32x32 main_cst
  let main_v2 : IVec S16x512x32x32 1 := cmpf .olt main_v0 main_v1
  let main_c : IVec S_ 1 := constantI S_ 1 1#1
  let main_v3 : IVec S_ 1 := (fun x v => Host.reduce IntOp.andi x v reducesTo_S16x512x32x32_S_d0_1_2_3 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S16x512x32x32 : Shape := ⟨4, ![16, 512, 32, 32]⟩
abbrev S1536x512 : Shape := ⟨2, ![1536, 512]⟩
abbrev S512x512 : Shape := ⟨2, ![512, 512]⟩
abbrev S16x32x32x512 : Shape := ⟨4, ![16, 32, 32, 512]⟩
abbrev S16x1024x512 : Shape := ⟨3, ![16, 1024, 512]⟩
abbrev S1x1024x512 : Shape := ⟨3, ![1, 1024, 512]⟩
abbrev S1024x512 : Shape := ⟨2, ![1024, 512]⟩
abbrev S1024x1536 : Shape := ⟨2, ![1024, 1536]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S512x64 : Shape := ⟨2, ![512, 64]⟩

abbrev nBuf : Space → Nat
  | .hbm => 8
  | .vmem => 6
  | .smem => 0
  | _ => 0

abbrev bufTy : (tb : Table) → Fin (tcTables nBuf tb) → BufTy
  | .hbm, ⟨0, _⟩ => ⟨S16x512x32x32, .f32⟩
  | .hbm, ⟨1, _⟩ => ⟨S1536x512, .f32⟩
  | .hbm, ⟨2, _⟩ => ⟨S512x512, .f32⟩
  | .hbm, ⟨3, _⟩ => ⟨S16x32x32x512, .f32⟩
  | .hbm, ⟨4, _⟩ => ⟨S16x1024x512, .f32⟩
  | .hbm, ⟨5, _⟩ => ⟨S16x1024x512, .f32⟩
  | .hbm, ⟨6, _⟩ => ⟨S16x32x32x512, .f32⟩
  | .hbm, ⟨7, _⟩ => ⟨S16x512x32x32, .f32⟩
  | .local _ .vmem, ⟨0, _⟩ => ⟨S1x1024x512, .f32⟩
  | .local _ .vmem, ⟨1, _⟩ => ⟨S1x1024x512, .f32⟩
  | .local _ .vmem, ⟨2, _⟩ => ⟨S1536x512, .f32⟩
  | .local _ .vmem, ⟨3, _⟩ => ⟨S512x512, .f32⟩
  | .local _ .vmem, ⟨4, _⟩ => ⟨S1x1024x512, .f32⟩
  | .local _ .vmem, ⟨5, _⟩ => ⟨S1x1024x512, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S16x512x32x32_S16x32x32x512_0_2_3_1 : S16x512x32x32.Transposes [0, 2, 3, 1] S16x32x32x512
  shapeCasts_S16x32x32x512_S16x1024x512 : S16x32x32x512.ShapeCasts S16x1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1536x512_S1536x512_0_0 : ∀ a, (![0, 0] : Fin 2 → Nat) a + S1536x512.size a ≤ S1536x512.size a
  h_S1536x512 : 0 < S1536x512.numel
  inb_S512x512_S512x512_0_0 : ∀ a, (![0, 0] : Fin 2 → Nat) a + S512x512.size a ≤ S512x512.size a
  h_S512x512 : 0 < S512x512.numel
  slices_S1024x1536_o0_0_S1024x64 : S1024x1536.Slices ![0, 0] S1024x64
  slices_S1024x1536_o0_512_S1024x64 : S1024x1536.Slices ![0, 512] S1024x64
  slices_S1024x1536_o0_1024_S1024x64 : S1024x1536.Slices ![0, 1024] S1024x64
  reduces_S1024x1024_S1024 : S1024x1024.Reduces [1] S1024
  shapeCasts_S1024_S1024x1 : S1024.ShapeCasts S1024x1
  broadcasts_S1024x1_S1024x1024 : S1024x1.Broadcasts S1024x1024
  slices_S512x512_o0_0_S512x64 : S512x512.Slices ![0, 0] S512x64
  slices_S1024x1536_o0_64_S1024x64 : S1024x1536.Slices ![0, 64] S1024x64
  slices_S1024x1536_o0_576_S1024x64 : S1024x1536.Slices ![0, 576] S1024x64
  slices_S1024x1536_o0_1088_S1024x64 : S1024x1536.Slices ![0, 1088] S1024x64
  slices_S512x512_o0_64_S512x64 : S512x512.Slices ![0, 64] S512x64
  slices_S1024x1536_o0_128_S1024x64 : S1024x1536.Slices ![0, 128] S1024x64
  slices_S1024x1536_o0_640_S1024x64 : S1024x1536.Slices ![0, 640] S1024x64
  slices_S1024x1536_o0_1152_S1024x64 : S1024x1536.Slices ![0, 1152] S1024x64
  slices_S512x512_o0_128_S512x64 : S512x512.Slices ![0, 128] S512x64
  slices_S1024x1536_o0_192_S1024x64 : S1024x1536.Slices ![0, 192] S1024x64
  slices_S1024x1536_o0_704_S1024x64 : S1024x1536.Slices ![0, 704] S1024x64
  slices_S1024x1536_o0_1216_S1024x64 : S1024x1536.Slices ![0, 1216] S1024x64
  slices_S512x512_o0_192_S512x64 : S512x512.Slices ![0, 192] S512x64
  slices_S1024x1536_o0_256_S1024x64 : S1024x1536.Slices ![0, 256] S1024x64
  slices_S1024x1536_o0_768_S1024x64 : S1024x1536.Slices ![0, 768] S1024x64
  slices_S1024x1536_o0_1280_S1024x64 : S1024x1536.Slices ![0, 1280] S1024x64
  slices_S512x512_o0_256_S512x64 : S512x512.Slices ![0, 256] S512x64
  slices_S1024x1536_o0_320_S1024x64 : S1024x1536.Slices ![0, 320] S1024x64
  slices_S1024x1536_o0_832_S1024x64 : S1024x1536.Slices ![0, 832] S1024x64
  slices_S1024x1536_o0_1344_S1024x64 : S1024x1536.Slices ![0, 1344] S1024x64
  slices_S512x512_o0_320_S512x64 : S512x512.Slices ![0, 320] S512x64
  slices_S1024x1536_o0_384_S1024x64 : S1024x1536.Slices ![0, 384] S1024x64
  slices_S1024x1536_o0_896_S1024x64 : S1024x1536.Slices ![0, 896] S1024x64
  slices_S1024x1536_o0_1408_S1024x64 : S1024x1536.Slices ![0, 1408] S1024x64
  slices_S512x512_o0_384_S512x64 : S512x512.Slices ![0, 384] S512x64
  slices_S1024x1536_o0_448_S1024x64 : S1024x1536.Slices ![0, 448] S1024x64
  slices_S1024x1536_o0_960_S1024x64 : S1024x1536.Slices ![0, 960] S1024x64
  slices_S1024x1536_o0_1472_S1024x64 : S1024x1536.Slices ![0, 1472] S1024x64
  slices_S512x512_o0_448_S512x64 : S512x512.Slices ![0, 448] S512x64
  shapeCasts_S1024x512_S1x1024x512 : S1024x512.ShapeCasts S1x1024x512
  shapeCasts_S16x1024x512_S16x32x32x512 : S16x1024x512.ShapeCasts S16x32x32x512
  transposes_S16x32x32x512_S16x512x32x32_0_3_1_2 : S16x32x32x512.Transposes [0, 3, 1, 2] S16x512x32x32
  dot_S1024x512_S1536x512_S1024x1536_1_1_0_0_n_n_wf : DotDims.WF S1024x512 S1536x512 S1024x1536 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x64_S512x64_S1024x512_1_1_0_0_n_n_wf : DotDims.WF S1024x64 S512x64 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S16x1024x512.size a
  hwx0_3 : ∀ i : grid0.Coords, EltTy.bits .f32 = 32 ∨ (Rect.block (s := S16x1024x512) S1x1024x512.size (cc0_transform_3 i) (hinb0_3 i)).WholeWords (EltTy.packing .f32)

variable [Facts₀]

def dot_S1024x512_S1536x512_S1024x1536_1_1_0_0_n_n : DotDims S1024x512 S1536x512 S1024x1536 where
  lhsContracting := [1]
  rhsContracting := [1]
  lhsNonContracting := [0]
  rhsNonContracting := [0]
  lhsBatch := []
  rhsBatch := []
  wf := dot_S1024x512_S1536x512_S1024x1536_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf

abbrev win0_0 : Pipeline.Window sig grid0 :=
  Pipeline.Window.ofSpec (Memref.whole main_v1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x32x32 : Shape := ⟨4, ![16, 512, 32, 32]⟩
abbrev S1536x512 : Shape := ⟨2, ![1536, 512]⟩
abbrev S512x512 : Shape := ⟨2, ![512, 512]⟩
abbrev S16x32x32x512 : Shape := ⟨4, ![16, 32, 32, 512]⟩
abbrev S16x1024x512 : Shape := ⟨3, ![16, 1024, 512]⟩
abbrev S16x1024x1536 : Shape := ⟨3, ![16, 1024, 1536]⟩
abbrev S16x1024x3x8x64 : Shape := ⟨5, ![16, 1024, 3, 8, 64]⟩
abbrev S16x1024x1x8x64 : Shape := ⟨5, ![16, 1024, 1, 8, 64]⟩
abbrev S16x1024x8x64 : Shape := ⟨4, ![16, 1024, 8, 64]⟩
abbrev S16x8x1024x64 : Shape := ⟨4, ![16, 8, 1024, 64]⟩
abbrev S16x8x1024x1024 : Shape := ⟨4, ![16, 8, 1024, 1024]⟩
abbrev S_ : Shape := ⟨0, ![]⟩
abbrev S16x8x1024 : Shape := ⟨3, ![16, 8, 1024]⟩
abbrev S16x8x1024x1 : Shape := ⟨4, ![16, 8, 1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x512x32x32, .f32⟩
  | .hbm, ⟨1, _⟩ => ⟨S1536x512, .f32⟩
  | .hbm, ⟨2, _⟩ => ⟨S512x512, .f32⟩
  | .hbm, ⟨3, _⟩ => ⟨S16x32x32x512, .f32⟩
  | .hbm, ⟨4, _⟩ => ⟨S16x1024x512, .f32⟩
  | .hbm, ⟨5, _⟩ => ⟨S16x1024x1536, .f32⟩
  | .hbm, ⟨6, _⟩ => ⟨S16x1024x3x8x64, .f32⟩
  | .hbm, ⟨7, _⟩ => ⟨S16x1024x1x8x64, .f32⟩
  | .hbm, ⟨8, _⟩ => ⟨S16x1024x8x64, .f32⟩
  | .hbm, ⟨9, _⟩ => ⟨S16x8x1024x64, .f32⟩
  | .hbm, ⟨10, _⟩ => ⟨S16x1024x1x8x64, .f32⟩
  | .hbm, ⟨11, _⟩ => ⟨S16x1024x8x64, .f32⟩
  | .hbm, ⟨12, _⟩ => ⟨S16x8x1024x64, .f32⟩
  | .hbm, ⟨13, _⟩ => ⟨S16x1024x1x8x64, .f32⟩
  | .hbm, ⟨14, _⟩ => ⟨S16x1024x8x64, .f32⟩
  | .hbm, ⟨15, _⟩ => ⟨S16x8x1024x64, .f32⟩
  | .hbm, ⟨16, _⟩ => ⟨S16x8x1024x1024, .f32⟩
  | .hbm, ⟨17, _⟩ => ⟨S_, .f32⟩
  | .hbm, ⟨18, _⟩ => ⟨S16x8x1024x1024, .f32⟩
  | .hbm, ⟨19, _⟩ => ⟨S16x8x1024x1024, .f32⟩
  | .hbm, ⟨20, _⟩ => ⟨S_, .f32⟩
  | .hbm, ⟨21, _⟩ => ⟨S16x8x1024, .f32⟩
  | .hbm, ⟨22, _⟩ => ⟨S_, .f32⟩
  | .hbm, ⟨23, _⟩ => ⟨S16x8x1024, .f32⟩
  | .hbm, ⟨24, _⟩ => ⟨S16x8x1024, .f32⟩
  | .hbm, ⟨25, _⟩ => ⟨S16x8x1024x1, .f32⟩
  | .hbm, ⟨26, _⟩ => ⟨S16x8x1024x1024, .f32⟩
  | .hbm, ⟨27, _⟩ => ⟨S16x8x1024x1024, .f32⟩
  | .hbm, ⟨28, _⟩ => ⟨S16x8x1024x1024, .f32⟩
  | .hbm, ⟨29, _⟩ => ⟨S_, .f32⟩
  | .hbm, ⟨30, _⟩ => ⟨S16x8x1024, .f32⟩
  | .hbm, ⟨31, _⟩ => ⟨S16x8x1024x1, .f32⟩
  | .hbm, ⟨32, _⟩ => ⟨S16x8x1024x1024, .f32⟩
  | .hbm, ⟨33, _⟩ => ⟨S16x8x1024x1024, .f32⟩
  | .hbm, ⟨34, _⟩ => ⟨S16x8x1024x64, .f32⟩
  | .hbm, ⟨35, _⟩ => ⟨S16x1024x8x64, .f32⟩
  | .hbm, ⟨36, _⟩ => ⟨S16x1024x512, .f32⟩
  | .hbm, ⟨37, _⟩ => ⟨S16x1024x512, .f32⟩
  | .hbm, ⟨38, _⟩ => ⟨S16x32x32x512, .f32⟩
  | .hbm, ⟨39, _⟩ => ⟨S16x512x32x32, .f32⟩
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  transposes_S16x512x32x32_S16x32x32x512_0_2_3_1 : S16x512x32x32.Transposes [0, 2, 3, 1] S16x32x32x512
  shapeCasts_S16x32x32x512_S16x1024x512 : S16x32x32x512.ShapeCasts S16x1024x512
  shapeCasts_S16x1024x1536_S16x1024x3x8x64 : S16x1024x1536.ShapeCasts S16x1024x3x8x64
  slices_S16x1024x3x8x64_S16x1024x1x8x64_0_0_0_0_0 : S16x1024x3x8x64.Slices ![0, 0, 0, 0, 0] S16x1024x1x8x64
  shapeCasts_S16x1024x1x8x64_S16x1024x8x64 : S16x1024x1x8x64.ShapeCasts S16x1024x8x64
  transposes_S16x1024x8x64_S16x8x1024x64_0_2_1_3 : S16x1024x8x64.Transposes [0, 2, 1, 3] S16x8x1024x64
  slices_S16x1024x3x8x64_S16x1024x1x8x64_0_0_1_0_0 : S16x1024x3x8x64.Slices ![0, 0, 1, 0, 0] S16x1024x1x8x64
  slices_S16x1024x3x8x64_S16x1024x1x8x64_0_0_2_0_0 : S16x1024x3x8x64.Slices ![0, 0, 2, 0, 0] S16x1024x1x8x64
  bcast_S_S16x8x1024x1024 : S_.BroadcastsInDim S16x8x1024x1024 (![] : Fin 0 → Fin S16x8x1024x1024.rank)
  reducesTo_S16x8x1024x1024_S16x8x1024_d3 : S16x8x1024x1024.ReducesTo [3] S16x8x1024
  h_S_ : 0 < S_.numel
  bcast_S_S16x8x1024 : S_.BroadcastsInDim S16x8x1024 (![] : Fin 0 → Fin S16x8x1024.rank)
  bcast_S16x8x1024_S16x8x1024x1_0_1_2 : S16x8x1024.BroadcastsInDim S16x8x1024x1 (![0, 1, 2] : Fin 3 → Fin S16x8x1024x1.rank)
  bcast_S16x8x1024x1_S16x8x1024x1024_0_1_2_3 : S16x8x1024x1.BroadcastsInDim S16x8x1024x1024 (![0, 1, 2, 3] : Fin 4 → Fin S16x8x1024x1024.rank)
  transposes_S16x8x1024x64_S16x1024x8x64_0_2_1_3 : S16x8x1024x64.Transposes [0, 2, 1, 3] S16x1024x8x64
  shapeCasts_S16x1024x8x64_S16x1024x512 : S16x1024x8x64.ShapeCasts S16x1024x512
  shapeCasts_S16x1024x512_S16x32x32x512 : S16x1024x512.ShapeCasts S16x32x32x512
  transposes_S16x32x32x512_S16x512x32x32_0_3_1_2 : S16x32x32x512.Transposes [0, 3, 1, 2] S16x512x32x32
  dot_S16x1024x512_S1536x512_S16x1024x1536_2_1_01_0_n_n_wf : DotDims.WF S16x1024x512 S1536x512 S16x1024x1536 [2] [1] [0, 1] [0] [] []
  dot_S16x8x1024x64_S16x8x1024x64_S16x8x1024x1024_3_3_2_2_01_01_wf : DotDims.WF S16x8x1024x64 S16x8x1024x64 S16x8x1024x1024 [3] [3] [2] [2] [0, 1] [0, 1]
  dot_S16x8x1024x1024_S16x8x1024x64_S16x8x1024x64_3_2_2_3_01_01_wf : DotDims.WF S16x8x1024x1024 S16x8x1024x64 S16x8x1024x64 [3] [2] [2] [3] [0, 1] [0, 1]
  dot_S16x1024x512_S512x512_S16x1024x512_2_1_01_0_n_n_wf : DotDims.WF S16x1024x512 S512x512 S16x1024x512 [2] [1] [0, 1] [0] [] []

variable [Facts₀]

def dot_S16x1024x512_S1536x512_S16x1024x1536_2_1_01_0_n_n : DotDims S16x1024x512 S1536x512 S16x1024x1536 where
  lhsContracting := [2]
  rhsContracting := [1]
  lhsNonContracting := [0, 1]
  rhsNonContracting := [0]
  lhsBatch := []
  rhsBatch := []
  wf := dot_S16x1024x512_S1536x512_S16x1024x1536_2_1_01_0_n_n_wf
def dot_S16x8x1024x64_S16x8x1024x64_S16x8x1024x1024_3_3_2_2_01_01 : DotDims S16x8x1024x64 S16x8x1024x64 S16x8x1024x1024 where
  lhsContracting := [3]
  rhsContracting := [3]
  lhsNonContracting := [2]
  rhsNonContracting := [2]
  lhsBatch := [0, 1]
  rhsBatch := [0, 1]
  wf := dot_S16x8x1024x64_S16x8x1024x64_S16x8x1024x1024_3_3_2_2_01_01_wf
def dot_S16x8x1024x1024_S16x8x1024x64_S16x8x1024x64_3_2_2_3_01_01 : DotDims S16x8x1024x1024 S16x8x1024x64 S16x8x1024x64 where
  lhsContracting := [3]
  rhsContracting := [2]
  lhsNonContracting := [2]
  rhsNonContracting := [3]
  lhsBatch := [0, 1]
  rhsBatch := [0, 1]
  wf := dot_S16x8x1024x1024_S16x8x1024x64_S16x8x1024x64_3_2_2_3_01_01_wf
def dot_S16x1024x512_S512x512_S16x1024x512_2_1_01_0_n_n : DotDims S16x1024x512 S512x512 S16x1024x512 where
  lhsContracting := [2]
  rhsContracting := [1]
  lhsNonContracting := [0, 1]
  rhsNonContracting := [0]
  lhsBatch := []
  rhsBatch := []
  wf := dot_S16x1024x512_S512x512_S16x1024x512_2_1_01_0_n_n_wf

class Facts : Prop extends Facts₀ where

variable [Facts]
-- ==== Proof.AttnSpec.lean ====
/-
  Multi-head self-attention over one image, as a function on the extended reals.

  A batch element is 1024 tokens of 512 channels. Its fused projection qkv(s, d') = Σ_c X(s, c)·Wqkv(d', c) has 1536
  columns: head h of the 8 heads reads its queries in columns 64h … 64h+63, its keys 512 columns further on and its
  values 1024 columns further on. For a query token s the scaled logits against every key token t are
  L(s, t) = (Σ_e q(s, e)·k(t, e))·(1/8); the row is shifted by its maximum (taken from −∞), exponentiated and divided by
  its sum; the head's output is O(s, j) = Σ_t P(s, t)·v(t, j). The out-projection reads the heads' outputs side by side:
  entry (s, d) is Σ_h Σ_j O_h(s, j)·Wout(d, 64h + j).
-/
import Idealize.ShloMosaic.PureOps.Ideal
import Idealize.ShloMosaic.Lib.ValueIdx

noncomputable section

namespace Cert.Attn

open Idealize.ShloMosaic Idealize.ShloMosaic.ValueIdx

/-- The scale 1/√64 as the f32 word both programs print. -/
abbrev scale8 : EReal := Ideal.ofBits .f32 0x3E000000#32
/-- The word of −∞, from which both programs start a row's maximum. -/
abbrev negInf : EReal := Ideal.ofBits .f32 0xFF800000#32

/-- The scaled logit of query token `s` against key token `t`. -/
def logit (q k : Fin 1024 → Fin 64 → EReal) (s t : Fin 1024) : EReal := (∑ e : Fin 64, q s e * k t e) * scale8

/-- A row's maximum: the fold of `max` from −∞ over the row, once more capped below by −∞. -/
def rowMax (L : Fin 1024 → EReal) : EReal := max negInf ((Finset.univ : Finset (Fin 1024)).fold max negInf L)

/-- The shifted exponential of a row's entry. -/
def expo (L : Fin 1024 → EReal) (t : Fin 1024) : EReal := Ideal.exp (L t - rowMax L)

/-- The softmax weight of a row's entry. -/
def prob (L : Fin 1024 → EReal) (t : Fin 1024) : EReal := Ideal.div (expo L t) (∑ t' : Fin 1024, expo L t')

/-- One head's output at token `s`, coordinate `j`. -/
def headOut (q k v : Fin 1024 → Fin 64 → EReal) (s : Fin 1024) (j : Fin 64) : EReal :=
  ∑ t : Fin 1024, prob (logit q k s) t * v t j

/-- Column 64h + e of the 512 columns the heads share out. -/
def colO (h : Fin 8) (e : Fin 64) : Fin 512 := ⟨64 * h.val + e.val, by have := h.isLt; have := e.isLt; omega⟩
/-- Head h's query, key and value columns of the fused projection. -/
def colQ (h : Fin 8) (e : Fin 64) : Fin 1536 := ⟨64 * h.val + e.val, by have := h.isLt; have := e.isLt; omega⟩
def colK (h : Fin 8) (e : Fin 64) : Fin 1536 := ⟨512 + (64 * h.val + e.val), by have := h.isLt; have := e.isLt; omega⟩
def colV (h : Fin 8) (e : Fin 64) : Fin 1536 := ⟨1024 + (64 * h.val + e.val), by have := h.isLt; have := e.isLt; omega⟩

/-- The fused projection of one batch element: tokens `X` against the weight rows. -/
def qkvRow (X : Fin 1024 → Fin 512 → EReal) (Wq : (⟨2, ![1536, 512]⟩ : Shape).Idx → EReal)
    (s : Fin 1024) (d : Fin 1536) : EReal := ∑ c : Fin 512, X s c * Wq (ix2 d c)

/-- Head `h`'s output for one batch element, from its fused projection `P`. -/
def headOf (P : Fin 1024 → Fin 1536 → EReal) (h : Fin 8) (s : Fin 1024) (j : Fin 64) : EReal :=
  headOut (fun s e => P s (colQ h e)) (fun t e => P t (colK h e)) (fun t e => P t (colV h e)) s j

/-- The out-projection of the heads' outputs, from the fused projection `P`: entry (s, d). -/
def projOf (P : Fin 1024 → Fin 1536 → EReal) (Wo : (⟨2, ![512, 512]⟩ : Shape).Idx → EReal) (s : Fin 1024) (d : Fin 512) : EReal :=
  ∑ h : Fin 8, ∑ j : Fin 64, headOf P h s j * Wo (ix2 d (colO h j))

/-- The attention layer on one batch element: token `s`, channel `d`. -/
def attnBlock (X : Fin 1024 → Fin 512 → EReal) (Wq : (⟨2, ![1536, 512]⟩ : Shape).Idx → EReal)
    (Wo : (⟨2, ![512, 512]⟩ : Shape).Idx → EReal) (s : Fin 1024) (d : Fin 512) : EReal :=
  projOf (qkvRow X Wq) Wo s d

/-- The layer as one array [16, 1024, 512]: each batch element by itself. -/
def attn (X : (⟨3, ![16, 1024, 512]⟩ : Shape).Idx → EReal) (Wq : (⟨2, ![1536, 512]⟩ : Shape).Idx → EReal)
    (Wo : (⟨2, ![512, 512]⟩ : Shape).Idx → EReal) : (⟨3, ![16, 1024, 512]⟩ : Shape).Idx → EReal :=
  fun i => attnBlock (fun s c => X (ix3 (i 0) s c)) Wq Wo (i 1) (i 2)

theorem attn_apply (X : (⟨3, ![16, 1024, 512]⟩ : Shape).Idx → EReal) (Wq : (⟨2, ![1536, 512]⟩ : Shape).Idx → EReal)
    (Wo : (⟨2, ![512, 512]⟩ : Shape).Idx → EReal) (b : Fin 16) (s : Fin 1024) (d : Fin 512) :
    attn X Wq Wo (ix3 b s d) = attnBlock (fun s c => X (ix3 b s c)) Wq Wo s d := rfl

end Cert.Attn

end
-- ==== Proof.LibMatmulRowsByRows.lean ====
/-
  The product of an m×k matrix with the transpose of an n×k matrix, read at an index, at the ideal values.

  With A of m rows and B of n rows, both of k entries, the product contracting the LAST axis of both has at (r, h) the
  entry Σ_l A(r, l)·B(h, l): row r of A against row h of B. At the ideal values, where no rounding and no order of
  summation is left, both the kernel's product into a zero accumulator and the host's product read exactly that sum.
  The four coordinate lemmas say where each operand is read: the contracted axis takes the contraction's one
  coordinate, each operand's kept axis the matching coordinate of the result.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

variable {m k n : ℕ}

/-- The dimension numbers `[1] × [1]`, kept axes `[0]` and `[0]`, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's kept axis reads the result's first coordinate. -/
theorem lhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's kept axis reads the result's second coordinate. -/
theorem rhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 0).val = (j 1).val := by
  unfold DotDims.rhsIdx
  rw [dif_neg (show ¬(0 : Fin 2) ∈ (dims w).rhsBatch from List.not_mem_nil),
    dif_pos (show (0 : Fin 2) ∈ (dims w).rhsNonContracting from List.mem_singleton.mpr rfl)]
  rfl

/-- The right operand's contracted axis reads the contraction's coordinate. -/
theorem rhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 1).val = (q ⟨0, Nat.one_pos⟩).val :=
  (dims w).rhsIdx_val_of_single rfl j q

/-- The contraction's sum, re-indexed by the contracted coordinate: the left operand is read along its row `r`, the
    right one along its row `h`. -/
theorem sum_contr (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 h l) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 h l := by
    funext ax; apply Fin.ext
    match ax with
    | ⟨0, _⟩ => exact rhs_0 w _ _
    | ⟨1, _⟩ => exact (rhs_1 w _ _).trans c2
  rw [l2, r2]

/-- A kernel's product of an m×k matrix with the transpose of an n×k matrix into the zero accumulator, read at `(r, h)`. -/
theorem matmul_rows_by_rows_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply]
  exact sum_contr w A B r h

/-- The host's product of an m×k matrix with the transpose of an n×k matrix, read at `(r, h)`. -/
theorem dotGeneral_rows_by_rows_apply {φ₁ φ₂ : FTy}
    (w : DotDims.WF ⟨2, ![m, k]⟩ ⟨2, ![n, k]⟩ ⟨2, ![m, n]⟩ [1] [1] [0] [0] [] [])
    (prec : Option ContractPrecision) (sched : HostSchedule) (A : FVec Ideal ⟨2, ![m, k]⟩ φ₁) (B : FVec Ideal ⟨2, ![n, k]⟩ φ₂)
    (r : Fin m) (h : Fin n) :
    FloatOps.dotGeneral (⟨[1], [1], [0], [0], [], [], w⟩ : DotDims _ _ _) prec sched A B (ix2 r h)
      = ∑ l : Fin k, A (ix2 r l) * B (ix2 h l) := by
  rw [Ideal.dotGeneral_apply]
  exact sum_contr w A B r h

end Idealize.ShloMosaic.MatmulRowsByRows

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.HeadValue.lean ====
/-
  One attention head on vectors, and what it is at an index.

  From the 64 query, key and value columns of a head (three [1024, 64] matrices) and the head's 64 columns of the
  out-projection weight (a [512, 64] matrix): the scaled logits L = (q·kᵀ)·(1/8), the row maxima of L from −∞, the
  shifted exponentials, their row sums, the weights P, the head's output P·v, and its contribution (P·v)·wᵀ to the
  [1024, 512] result. The pieces are stated at every float instance, in the very operations the kernel's body spells,
  so that the body's values are these by unfolding. At the ideal values each is read at an index: a product is the sum
  over its contracted coordinate, a row reduction the sum or the fold of max over the row, a change of float format
  nothing. The contribution at (s, d) is then Σ_j O(s, j)·w(d, j) with O the head's output of the specification.
-/
import proofs.«118763_j15118284882388_1_alg».proof.Proof.Gen.KernelIdeal
import proofs.«118763_j15118284882388_1_alg».proof.Proof.AttnSpec
import proofs.«118763_j15118284882388_1_alg».proof.Proof.LibMatmulRowsByRows
import proofs.«118763_j15118284882388_1_alg».proof.Proof.LibDenseLayer
import proofs.«118763_j15118284882388_1_alg».proof.Proof.LibRowOps
import Idealize.ShloMosaic.PureOps.Ideal.Laws
import Idealize.ShloMosaic.Lib.ValueIdx
import Idealize.ShloMosaic.Lib.Pipeline.Value

noncomputable section

namespace Cert.Attn

open Idealize.ShloMosaic Idealize.ShloMosaic.ValueIdx Cert.KernelIdeal Cert.KernelIdeal.Gen

section AnyInstance
variable {F : FTy → Type} [FloatOps F]

/-- The scaled logits of a head: (q·kᵀ)·(1/8). -/
def logitsV (q k : FVec F S1024x64 .bf16) : FVec F S1024x1024 .f32 :=
  mulf (matmul dot_S1024x64_S1024x64_S1024x1024_1_1_0_0_n_n none q k (constant S1024x1024 .f32 0x00000000#32))
    (broadcast S1024x1024 (Scalar.ofBits .f32 0x3E000000#32))

/-- The row maxima of the logits, from −∞. -/
def rawMaxV (L : FVec F S1024x1024 .f32) : FVec F S1024 .f32 :=
  multiReduction .maximumf [1] S1024 L 0xFF800000#32 reduces_S1024x1024_S1024 (.inl rfl) rfl

/-- The exponentials of the logits shifted by their row's maximum (capped below by −∞ once more). -/
def expV (L : FVec F S1024x1024 .f32) (M : FVec F S1024 .f32) : FVec F S1024x1024 .f32 :=
  exp (subf L (broadcastTo S1024x1024 (shapeCast S1024x1 (maximumf (broadcast S1024 (Scalar.ofBits .f32 0xFF800000#32)) M)
    shapeCasts_S1024_S1024x1) broadcasts_S1024x1_S1024x1024))

/-- The softmax weights: each exponential over its row's sum. -/
def probV (L : FVec F S1024x1024 .f32) (M : FVec F S1024 .f32) : FVec F S1024x1024 .f32 :=
  divf (expV L M) (broadcastTo S1024x1024 (shapeCast S1024x1
    (multiReduction .add [1] S1024 (expV L M) 0x00000000#32 reduces_S1024x1024_S1024 (.inl rfl) rfl)
    shapeCasts_S1024_S1024x1) broadcasts_S1024x1_S1024x1024)

/-- The head's contribution to the result, from its logits, their row maxima, its values and its weight columns. -/
def headTailV (L : FVec F S1024x1024 .f32) (M : FVec F S1024 .f32) (v : FVec F S1024x64 .bf16) (w : FVec F S512x64 .bf16) :
    FVec F S1024x512 .f32 :=
  matmul dot_S1024x64_S512x64_S1024x512_1_1_0_0_n_n none
    (truncf .bf16 (matmul dot_S1024x1024_S1024x64_S1024x64_1_0_0_1_n_n none (truncf .bf16 (probV L M) bitsLt_bf16_f32) v
      (constant S1024x64 .f32 0x00000000#32)) bitsLt_bf16_f32)
    w (constant S1024x512 .f32 0x00000000#32)

/-- A whole head. -/
def headV (q k v : FVec F S1024x64 .bf16) (w : FVec F S512x64 .bf16) : FVec F S1024x512 .f32 :=
  headTailV (logitsV q k) (rawMaxV (logitsV q k)) v w

end AnyInstance

/-! ## At the ideal values, at an index -/

theorem logitsV_apply (q k : FVec Ideal S1024x64 .bf16) (s t : Fin 1024) :
    logitsV q k (ix2 s t) = (∑ e : Fin 64, q (ix2 s e) * k (ix2 t e)) * scale8 := by
  show FloatOps.matmul dot_S1024x64_S1024x64_S1024x1024_1_1_0_0_n_n none q k (constant S1024x1024 .f32 0x00000000#32) (ix2 s t)
    * scale8 = _
  exact congrArg (· * scale8)
    (MatmulRowsByRows.matmul_rows_by_rows_apply dot_S1024x64_S1024x64_S1024x1024_1_1_0_0_n_n_wf none q k s t)

theorem rawMaxV_apply (L : FVec Ideal S1024x1024 .f32) (s : Fin 1024) :
    rawMaxV L (ix1 s) = (Finset.univ : Finset (Fin 1024)).fold max negInf (fun t => L (ix2 s t)) :=
  RowOps.multiReduction_maximumf_row L _ reduces_S1024x1024_S1024 (.inl rfl) rfl s

theorem expV_apply (L : FVec Ideal S1024x1024 .f32) (M : FVec Ideal S1024 .f32) (s t : Fin 1024) :
    expV L M (ix2 s t) = Ideal.exp (L (ix2 s t) - max negInf (M (ix1 s))) := by
  show Ideal.exp (L (ix2 s t) - broadcastTo S1024x1024 (shapeCast S1024x1
    (maximumf (broadcast S1024 (Scalar.ofBits .f32 0xFF800000#32)) M) shapeCasts_S1024_S1024x1) broadcasts_S1024x1_S1024x1024 (ix2 s t)) = _
  rw [RowOps.broadcastTo_a1_ab_apply, RowOps.shapeCast_a_a1_apply]
  rfl

theorem probV_apply (L : FVec Ideal S1024x1024 .f32) (M : FVec Ideal S1024 .f32) (s t : Fin 1024) :
    probV L M (ix2 s t) = Ideal.div (expV L M (ix2 s t)) (∑ t' : Fin 1024, expV L M (ix2 s t')) := by
  show Ideal.div (expV L M (ix2 s t)) (broadcastTo S1024x1024 (shapeCast S1024x1
    (multiReduction .add [1] S1024 (expV L M) 0x00000000#32 reduces_S1024x1024_S1024 (.inl rfl) rfl)
    shapeCasts_S1024_S1024x1) broadcasts_S1024x1_S1024x1024 (ix2 s t)) = _
  rw [RowOps.broadcastTo_a1_ab_apply, RowOps.shapeCast_a_a1_apply]
  exact congrArg (Ideal.div (expV L M (ix2 s t)))
    (RowOps.multiReduction_add_row (expV L M) 0x00000000#32 reduces_S1024x1024_S1024 (.inl rfl) rfl s)

theorem headTailV_apply (L : FVec Ideal S1024x1024 .f32) (M : FVec Ideal S1024 .f32) (v : FVec Ideal S1024x64 .bf16)
    (w : FVec Ideal S512x64 .bf16) (s : Fin 1024) (d : Fin 512) :
    headTailV L M v w (ix2 s d)
      = ∑ j : Fin 64, (∑ t : Fin 1024, probV L M (ix2 s t) * v (ix2 t j)) * w (ix2 d j) := by
  refine (MatmulRowsByRows.matmul_rows_by_rows_apply dot_S1024x64_S512x64_S1024x512_1_1_0_0_n_n_wf none _ w s d).trans ?_
  refine Finset.sum_congr rfl fun j _ => congrArg (· * w (ix2 d j)) ?_
  exact DenseLayer.matmul_rows_apply dot_S1024x1024_S1024x64_S1024x64_1_0_0_1_n_n_wf none (probV L M) v s j

/-- The weights of the head, from the specification's row of logits. -/
theorem probV_eq_prob (q k : FVec Ideal S1024x64 .bf16) (s t : Fin 1024) :
    probV (logitsV q k) (rawMaxV (logitsV q k)) (ix2 s t)
      = prob (logit (fun s e => q (ix2 s e)) (fun t e => k (ix2 t e)) s) t := by
  have hL : ∀ t', logitsV q k (ix2 s t') = logit (fun s e => q (ix2 s e)) (fun t e => k (ix2 t e)) s t' :=
    fun t' => logitsV_apply q k s t'
  have hM : max negInf (rawMaxV (logitsV q k) (ix1 s)) = rowMax (logit (fun s e => q (ix2 s e)) (fun t e => k (ix2 t e)) s) := by
    rw [rawMaxV_apply]; unfold rowMax
    exact congrArg (fun f : Fin 1024 → EReal => max negInf ((Finset.univ : Finset (Fin 1024)).fold max negInf f)) (funext hL)
  have hE : ∀ t', expV (logitsV q k) (rawMaxV (logitsV q k)) (ix2 s t')
      = expo (logit (fun s e => q (ix2 s e)) (fun t e => k (ix2 t e)) s) t' := fun t' => by
    rw [expV_apply, hM, hL]; rfl
  rw [probV_apply, hE]
  unfold prob
  exact congrArg (Ideal.div _) (Finset.sum_congr rfl fun t' _ => hE t')

/-- A head's contribution at (s, d): the head's output of the specification against row d of its weight columns. -/
theorem headV_apply (q k v : FVec Ideal S1024x64 .bf16) (w : FVec Ideal S512x64 .bf16) (s : Fin 1024) (d : Fin 512) :
    headV q k v w (ix2 s d)
      = ∑ j : Fin 64, headOut (fun s e => q (ix2 s e)) (fun t e => k (ix2 t e)) (fun t e => v (ix2 t e)) s j * w (ix2 d j) := by
  unfold headV
  rw [headTailV_apply]
  refine Finset.sum_congr rfl fun j _ => congrArg (· * w (ix2 d j)) ?_
  unfold headOut
  exact Finset.sum_congr rfl fun t _ => congrArg (· * v (ix2 t j)) (probV_eq_prob q k s t)

end Cert.Attn

end
-- ==== Proof.Payloads.lean ====
/-
  The kernel body's values as the eight heads.

  The body computes the fused projection once, cuts each head's query, key and value columns out of it (64 columns at
  64h, 512 + 64h and 1024 + 64h) and the head's 64 weight columns out of the out-projection weight (at 64h), and adds the
  heads' contributions one after the other onto a zero matrix. Its named values are cut at fixed statement counts, not
  at head boundaries: a value may stop after a head's value columns, logits and row maxima and the next one pick the head
  up from there. Each named value is stated here as the head functions of what it is given; composed, the stored value is
  the running sum of the eight heads over the projection, with a unit axis put in front.
-/
import proofs.«118763_j15118284882388_1_alg».proof.Proof.Gen.KernelIdeal.Skeleton
import proofs.«118763_j15118284882388_1_alg».proof.Proof.HeadValue

noncomputable section

namespace Cert.Attn

open Idealize.ShloMosaic Cert.KernelIdeal Cert.KernelIdeal.Gen

variable {F : FTy → Type} [FloatOps F]

/-- Head `h`'s contribution, its columns cut out of the projection `P` and of the weight `W`. -/
def headAtV (P : FVec F S1024x1536 .bf16) (W : FVec F S512x512 .bf16) : Fin 8 → FVec F S1024x512 .f32
  | 0 => headV (extractStridedSlice S1024x64 ![0, 0] P slices_S1024x1536_o0_0_S1024x64) (extractStridedSlice S1024x64 ![0, 512] P slices_S1024x1536_o0_512_S1024x64)
      (extractStridedSlice S1024x64 ![0, 1024] P slices_S1024x1536_o0_1024_S1024x64) (extractStridedSlice S512x64 ![0, 0] W slices_S512x512_o0_0_S512x64)
  | 1 => headV (extractStridedSlice S1024x64 ![0, 64] P slices_S1024x1536_o0_64_S1024x64) (extractStridedSlice S1024x64 ![0, 576] P slices_S1024x1536_o0_576_S1024x64)
      (extractStridedSlice S1024x64 ![0, 1088] P slices_S1024x1536_o0_1088_S1024x64) (extractStridedSlice S512x64 ![0, 64] W slices_S512x512_o0_64_S512x64)
  | 2 => headV (extractStridedSlice S1024x64 ![0, 128] P slices_S1024x1536_o0_128_S1024x64) (extractStridedSlice S1024x64 ![0, 640] P slices_S1024x1536_o0_640_S1024x64)
      (extractStridedSlice S1024x64 ![0, 1152] P slices_S1024x1536_o0_1152_S1024x64) (extractStridedSlice S512x64 ![0, 128] W slices_S512x512_o0_128_S512x64)
  | 3 => headV (extractStridedSlice S1024x64 ![0, 192] P slices_S1024x1536_o0_192_S1024x64) (extractStridedSlice S1024x64 ![0, 704] P slices_S1024x1536_o0_704_S1024x64)
      (extractStridedSlice S1024x64 ![0, 1216] P slices_S1024x1536_o0_1216_S1024x64) (extractStridedSlice S512x64 ![0, 192] W slices_S512x512_o0_192_S512x64)
  | 4 => headV (extractStridedSlice S1024x64 ![0, 256] P slices_S1024x1536_o0_256_S1024x64) (extractStridedSlice S1024x64 ![0, 768] P slices_S1024x1536_o0_768_S1024x64)
      (extractStridedSlice S1024x64 ![0, 1280] P slices_S1024x1536_o0_1280_S1024x64) (extractStridedSlice S512x64 ![0, 256] W slices_S512x512_o0_256_S512x64)
  | 5 => headV (extractStridedSlice S1024x64 ![0, 320] P slices_S1024x1536_o0_320_S1024x64) (extractStridedSlice S1024x64 ![0, 832] P slices_S1024x1536_o0_832_S1024x64)
      (extractStridedSlice S1024x64 ![0, 1344] P slices_S1024x1536_o0_1344_S1024x64) (extractStridedSlice S512x64 ![0, 320] W slices_S512x512_o0_320_S512x64)
  | 6 => headV (extractStridedSlice S1024x64 ![0, 384] P slices_S1024x1536_o0_384_S1024x64) (extractStridedSlice S1024x64 ![0, 896] P slices_S1024x1536_o0_896_S1024x64)
      (extractStridedSlice S1024x64 ![0, 1408] P slices_S1024x1536_o0_1408_S1024x64) (extractStridedSlice S512x64 ![0, 384] W slices_S512x512_o0_384_S512x64)
  | 7 => headV (extractStridedSlice S1024x64 ![0, 448] P slices_S1024x1536_o0_448_S1024x64) (extractStridedSlice S1024x64 ![0, 960] P slices_S1024x1536_o0_960_S1024x64)
      (extractStridedSlice S1024x64 ![0, 1472] P slices_S1024x1536_o0_1472_S1024x64) (extractStridedSlice S512x64 ![0, 448] W slices_S512x512_o0_448_S512x64)

/-- The eight contributions added in order onto the zero matrix. -/
def accV (P : FVec F S1024x1536 .bf16) (W : FVec F S512x512 .bf16) : FVec F S1024x512 .f32 :=
  (addf (addf (addf (addf (addf (addf (addf (addf (broadcast S1024x512 (Scalar.ofBits .f32 0x00000000#32)) (headAtV P W 0)) (headAtV P W 1)) (headAtV P W 2)) (headAtV P W 3)) (headAtV P W 4)) (headAtV P W 5)) (headAtV P W 6)) (headAtV P W 7))

theorem pay4_eq (v0 : Vec F S1x1024x512 .f32) (v3 : Vec F S1536x512 .f32) (v5 : Vec F S512x512 .f32) :
    k0_pay4 v0 v3 v5 = addf (broadcast S1024x512 (Scalar.ofBits .f32 0x00000000#32)) (headAtV (k0_pay3 v0 v3) (k0_pay2 v5) 0) := rfl

theorem pay5_eq (v0 : Vec F S1x1024x512 .f32) (v3 : Vec F S1536x512 .f32) : k0_pay5 v0 v3 = (extractStridedSlice S1024x64 ![0, 1088] (k0_pay3 v0 v3) slices_S1024x1536_o0_1088_S1024x64) := rfl
theorem pay6_eq (v0 : Vec F S1x1024x512 .f32) (v3 : Vec F S1536x512 .f32) :
    k0_pay6 v0 v3 = logitsV (extractStridedSlice S1024x64 ![0, 64] (k0_pay3 v0 v3) slices_S1024x1536_o0_64_S1024x64) (extractStridedSlice S1024x64 ![0, 576] (k0_pay3 v0 v3) slices_S1024x1536_o0_576_S1024x64) := rfl
theorem pay7_eq (v0 : Vec F S1x1024x512 .f32) (v3 : Vec F S1536x512 .f32) : k0_pay7 v0 v3 = rawMaxV (k0_pay6 v0 v3) := rfl

theorem pay8_eq (v6 : FVec F S512x512 .bf16) (v8 : FVec F S1024x1536 .bf16) (v32 : FVec F S1024x512 .f32) (v35 : FVec F S1024x64 .bf16)
    (v38 : FVec F S1024x1024 .f32) (v39 : FVec F S1024 .f32) :
    k0_pay8 v6 v8 v32 v35 v38 v39 = addf (addf v32 (headTailV v38 v39 v35 (extractStridedSlice S512x64 ![0, 64] v6 slices_S512x512_o0_64_S512x64))) (headAtV v8 v6 2) := rfl

theorem pay9_eq (v8 : FVec F S1024x1536 .bf16) : k0_pay9 v8 = (extractStridedSlice S1024x64 ![0, 1216] v8 slices_S1024x1536_o0_1216_S1024x64) := rfl
theorem pay10_eq (v8 : FVec F S1024x1536 .bf16) : k0_pay10 v8 = logitsV (extractStridedSlice S1024x64 ![0, 192] v8 slices_S1024x1536_o0_192_S1024x64) (extractStridedSlice S1024x64 ![0, 704] v8 slices_S1024x1536_o0_704_S1024x64) := rfl
theorem pay11_eq (v8 : FVec F S1024x1536 .bf16) : k0_pay11 v8 = rawMaxV (k0_pay10 v8) := rfl

theorem pay12_eq (v6 : FVec F S512x512 .bf16) (v8 : FVec F S1024x1536 .bf16) (v78 : FVec F S1024x512 .f32) (v81 : FVec F S1024x64 .bf16)
    (v84 : FVec F S1024x1024 .f32) (v85 : FVec F S1024 .f32) :
    k0_pay12 v6 v8 v78 v81 v84 v85 = addf (addf v78 (headTailV v84 v85 v81 (extractStridedSlice S512x64 ![0, 192] v6 slices_S512x512_o0_192_S512x64))) (headAtV v8 v6 4) := rfl

theorem pay13_eq (v8 : FVec F S1024x1536 .bf16) : k0_pay13 v8 = (extractStridedSlice S1024x64 ![0, 1344] v8 slices_S1024x1536_o0_1344_S1024x64) := rfl
theorem pay14_eq (v8 : FVec F S1024x1536 .bf16) : k0_pay14 v8 = logitsV (extractStridedSlice S1024x64 ![0, 320] v8 slices_S1024x1536_o0_320_S1024x64) (extractStridedSlice S1024x64 ![0, 832] v8 slices_S1024x1536_o0_832_S1024x64) := rfl
theorem pay15_eq (v8 : FVec F S1024x1536 .bf16) : k0_pay15 v8 = rawMaxV (k0_pay14 v8) := rfl

theorem pay16_eq (v6 : FVec F S512x512 .bf16) (v8 : FVec F S1024x1536 .bf16) (v124 : FVec F S1024x512 .f32) (v127 : FVec F S1024x64 .bf16)
    (v130 : FVec F S1024x1024 .f32) (v131 : FVec F S1024 .f32) :
    k0_pay16 v6 v8 v124 v127 v130 v131 = addf (addf v124 (headTailV v130 v131 v127 (extractStridedSlice S512x64 ![0, 320] v6 slices_S512x512_o0_320_S512x64))) (headAtV v8 v6 6) := rfl

theorem pay17_eq (v8 : FVec F S1024x1536 .bf16) : k0_pay17 v8 = (extractStridedSlice S1024x64 ![0, 1472] v8 slices_S1024x1536_o0_1472_S1024x64) := rfl
theorem pay18_eq (v8 : FVec F S1024x1536 .bf16) : k0_pay18 v8 = logitsV (extractStridedSlice S1024x64 ![0, 448] v8 slices_S1024x1536_o0_448_S1024x64) (extractStridedSlice S1024x64 ![0, 960] v8 slices_S1024x1536_o0_960_S1024x64) := rfl
theorem pay19_eq (v8 : FVec F S1024x1536 .bf16) : k0_pay19 v8 = rawMaxV (k0_pay18 v8) := rfl

theorem pay1_eq (v6 : FVec F S512x512 .bf16) (v170 : FVec F S1024x512 .f32) (v173 : FVec F S1024x64 .bf16)
    (v176 : FVec F S1024x1024 .f32) (v177 : FVec F S1024 .f32) :
    k0_pay1 v6 v170 v173 v176 v177
      = shapeCast S1x1024x512 (addf v170 (headTailV v176 v177 v173 (extractStridedSlice S512x64 ![0, 448] v6 slices_S512x512_o0_448_S512x64))) shapeCasts_S1024x512_S1x1024x512 := rfl

/-- The value the body stores, from its three loaded blocks: the eight heads over the fused projection, summed. -/
theorem stored_eq (v0 : Vec F S1x1024x512 .f32) (v3 : Vec F S1536x512 .f32) (v5 : Vec F S512x512 .f32) :
    k0_pay1 (k0_pay2 v5) (k0_pay16 (k0_pay2 v5) (k0_pay3 v0 v3) (k0_pay12 (k0_pay2 v5) (k0_pay3 v0 v3)
      (k0_pay8 (k0_pay2 v5) (k0_pay3 v0 v3) (k0_pay4 v0 v3 v5) (k0_pay5 v0 v3) (k0_pay6 v0 v3) (k0_pay7 v0 v3))
      (k0_pay9 (k0_pay3 v0 v3)) (k0_pay10 (k0_pay3 v0 v3)) (k0_pay11 (k0_pay3 v0 v3)))
      (k0_pay13 (k0_pay3 v0 v3)) (k0_pay14 (k0_pay3 v0 v3)) (k0_pay15 (k0_pay3 v0 v3)))
      (k0_pay17 (k0_pay3 v0 v3)) (k0_pay18 (k0_pay3 v0 v3)) (k0_pay19 (k0_pay3 v0 v3))
      = shapeCast S1x1024x512 (accV (k0_pay3 v0 v3) (k0_pay2 v5)) shapeCasts_S1024x512_S1x1024x512 := by
  rw [pay1_eq, pay16_eq, pay12_eq, pay8_eq, pay4_eq, pay5_eq, pay6_eq, pay7_eq, pay6_eq, pay9_eq, pay10_eq, pay11_eq, pay10_eq,
    pay13_eq, pay14_eq, pay15_eq, pay14_eq, pay17_eq, pay18_eq, pay19_eq, pay18_eq]
  rfl

end Cert.Attn

end
-- ==== Proof.BlockValue.lean ====
/-
  The stored block at an index.

  At the ideal values the fused projection at (s, d') is Σ_c X(s, c)·Wqkv(d', c), the unit axis in front of the loaded
  block dropped. A head whose columns are cut out of the projection at 64h, 512 + 64h, 1024 + 64h, and out of the
  weight at 64h, contributes Σ_j O_h(s, j)·Wout(d, 64h + j) at (s, d). The eight contributions added onto zero are the
  sum over the heads, so the stored block is the specification's attention of one batch element.
-/
import proofs.«118763_j15118284882388_1_alg».proof.Proof.Payloads
import Idealize.ShloMosaic.Lib.ValueLayout

noncomputable section

namespace Cert.Attn

open Idealize.ShloMosaic Idealize.ShloMosaic.ValueIdx Cert.KernelIdeal Cert.KernelIdeal.Gen

/-- The fused projection of the loaded blocks at (s, d'). -/
theorem qkv_apply (v0 : Vec Ideal S1x1024x512 .f32) (v3 : Vec Ideal S1536x512 .f32) (s : Fin 1024) (d : Fin 1536) :
    k0_pay3 v0 v3 (ix2 s d) = qkvRow (fun s c => v0 (ix3 0 s c)) v3 s d := by
  unfold k0_pay3 qkvRow
  refine (MatmulRowsByRows.matmul_rows_by_rows_apply dot_S1024x512_S1536x512_S1024x1536_1_1_0_0_n_n_wf none _ _ s d).trans ?_
  refine Finset.sum_congr rfl fun c _ => congrArg (· * v3 (ix2 d c)) ?_
  show shapeCast S1024x512 v0 shapeCasts_S1x1024x512_S1024x512 (ix2 s c) = v0 (ix3 0 s c)
  refine shapeCast_apply v0 _ (ix2 s c) (ix3 0 s c) ?_
  rw [Shape.rowMajor_val_two, Shape.rowMajor_val_three]
  show ((0 : Fin 1).val * 1024 + s.val) * 512 + c.val = s.val * 512 + c.val
  simp

/-- A head on columns cut at 64h, 512 + 64h, 1024 + 64h of the projection and 64h of the weight, at (s, d). -/
theorem headV_slices (P : FVec Ideal S1024x1536 .bf16) (W : FVec Ideal S512x512 .bf16) (h : Fin 8) (oq ok ov ow : Nat)
    (hq : S1024x1536.Slices ![0, oq] S1024x64) (hk : S1024x1536.Slices ![0, ok] S1024x64)
    (hv : S1024x1536.Slices ![0, ov] S1024x64) (hw : S512x512.Slices ![0, ow] S512x64)
    (eq : oq = 64 * h.val) (ek : ok = 512 + 64 * h.val) (ev : ov = 1024 + 64 * h.val) (ew : ow = 64 * h.val)
    (s : Fin 1024) (d : Fin 512) :
    headV (extractStridedSlice S1024x64 ![0, oq] P hq) (extractStridedSlice S1024x64 ![0, ok] P hk)
        (extractStridedSlice S1024x64 ![0, ov] P hv) (extractStridedSlice S512x64 ![0, ow] W hw) (ix2 s d)
      = ∑ j : Fin 64, headOf (fun s d' => P (ix2 s d')) h s j * W (ix2 d (colO h j)) := by
  rw [headV_apply]
  have hQ : (fun (s : Fin 1024) (e : Fin 64) => extractStridedSlice S1024x64 ![0, oq] P hq (ix2 s e))
      = fun s e => P (ix2 s (colQ h e)) :=
    funext fun s => funext fun e => slice2_axis1_apply oq P hq s e (colQ h e) (by subst eq; rfl)
  have hK' : (fun (t : Fin 1024) (e : Fin 64) => extractStridedSlice S1024x64 ![0, ok] P hk (ix2 t e))
      = fun t e => P (ix2 t (colK h e)) :=
    funext fun t => funext fun e => slice2_axis1_apply ok P hk t e (colK h e) (by subst ek; show 512 + (64 * h.val + e.val) = _; omega)
  have hV : (fun (t : Fin 1024) (e : Fin 64) => extractStridedSlice S1024x64 ![0, ov] P hv (ix2 t e))
      = fun t e => P (ix2 t (colV h e)) :=
    funext fun t => funext fun e => slice2_axis1_apply ov P hv t e (colV h e) (by subst ev; show 1024 + (64 * h.val + e.val) = _; omega)
  rw [hQ, hK', hV]
  refine Finset.sum_congr rfl fun j _ => ?_
  rw [slice2_axis1_apply ow W hw d j (colO h j) (by subst ew; rfl)]
  rfl

/-- Head `h`'s contribution at (s, d). -/
theorem headAtV_apply (P : FVec Ideal S1024x1536 .bf16) (W : FVec Ideal S512x512 .bf16) (h : Fin 8) (s : Fin 1024) (d : Fin 512) :
    headAtV P W h (ix2 s d) = ∑ j : Fin 64, headOf (fun s d' => P (ix2 s d')) h s j * W (ix2 d (colO h j)) :=
  match h with
  | ⟨0, _⟩ => headV_slices P W 0 0 512 1024 0 _ _ _ _ rfl rfl rfl rfl s d
  | ⟨1, _⟩ => headV_slices P W 1 64 576 1088 64 _ _ _ _ rfl rfl rfl rfl s d
  | ⟨2, _⟩ => headV_slices P W 2 128 640 1152 128 _ _ _ _ rfl rfl rfl rfl s d
  | ⟨3, _⟩ => headV_slices P W 3 192 704 1216 192 _ _ _ _ rfl rfl rfl rfl s d
  | ⟨4, _⟩ => headV_slices P W 4 256 768 1280 256 _ _ _ _ rfl rfl rfl rfl s d
  | ⟨5, _⟩ => headV_slices P W 5 320 832 1344 320 _ _ _ _ rfl rfl rfl rfl s d
  | ⟨6, _⟩ => headV_slices P W 6 384 896 1408 384 _ _ _ _ rfl rfl rfl rfl s d
  | ⟨7, _⟩ => headV_slices P W 7 448 960 1472 448 _ _ _ _ rfl rfl rfl rfl s d

/-- The running sum of the eight heads at (s, d): the out-projection of the heads' outputs. -/
theorem accV_apply (P : FVec Ideal S1024x1536 .bf16) (W : FVec Ideal S512x512 .bf16) (s : Fin 1024) (d : Fin 512) :
    accV P W (ix2 s d) = projOf (fun s d' => P (ix2 s d')) W s d := by
  show Ideal.ofBits .f32 0x00000000#32 + headAtV P W 0 (ix2 s d) + headAtV P W 1 (ix2 s d) + headAtV P W 2 (ix2 s d)
    + headAtV P W 3 (ix2 s d) + headAtV P W 4 (ix2 s d) + headAtV P W 5 (ix2 s d) + headAtV P W 6 (ix2 s d) + headAtV P W 7 (ix2 s d) = _
  unfold projOf
  rw [Ideal.ofBits_zero_f32, zero_add, Fin.sum_univ_eight]
  simp only [headAtV_apply]

/-- The stored block at (0, s, d): the attention of the batch element the three loaded blocks hold. -/
theorem stored_apply (v0 : Vec Ideal S1x1024x512 .f32) (v3 : Vec Ideal S1536x512 .f32) (v5 : Vec Ideal S512x512 .f32)
    (s : Fin 1024) (d : Fin 512) :
    shapeCast S1x1024x512 (accV (k0_pay3 v0 v3) (k0_pay2 v5)) shapeCasts_S1024x512_S1x1024x512 (ix3 0 s d)
      = attnBlock (fun s c => v0 (ix3 0 s c)) v3 v5 s d := by
  have hc : shapeCast S1x1024x512 (accV (k0_pay3 v0 v3) (k0_pay2 v5)) shapeCasts_S1024x512_S1x1024x512 (ix3 0 s d)
      = accV (k0_pay3 v0 v3) (k0_pay2 v5) (ix2 s d) := by
    refine shapeCast_apply _ _ (ix3 0 s d) (ix2 s d) ?_
    rw [Shape.rowMajor_val_two, Shape.rowMajor_val_three]
    show s.val * 512 + d.val = ((0 : Fin 1).val * 1024 + s.val) * 512 + d.val
    simp
  rw [hc, accV_apply]
  unfold attnBlock
  have hP : (fun (s : Fin 1024) (d' : Fin 1536) => k0_pay3 v0 v3 (ix2 s d')) = qkvRow (fun s c => v0 (ix3 0 s c)) v3 :=
    funext fun s => funext fun d' => qkv_apply v0 v3 s d'
  rw [hP]
  rfl

end Cert.Attn

end
-- ==== Proof.KernelRun.lean ====
/-
  The kernel's run, read: the result array as the attention layer of the arguments.

  The grid has one point per batch element. Point t loads rows [t] of the token array (the image with its channels moved
  last and its pixels flattened: a transpose and a reshape by the host before the call) and both weights whole, and writes
  back block [t] of the call's result, which is the attention of that batch element. The sixteen blocks tile the
  result, so after the run it is the layer applied to the whole token array. The host then undoes the layout: a reshape
  and a transpose back to channels first.
-/
import proofs.«118763_j15118284882388_1_alg».proof.Proof.Gen.KernelIdeal.Frame
import proofs.«118763_j15118284882388_1_alg».proof.Proof.BlockValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Attn.Kernel

open Cert.KernelIdeal Cert.KernelIdeal.Gen Cert.Attn

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The image with channels last and pixels flattened: the token array [16, 1024, 512]. -/
def tokens (a0 : S16x512x32x32.Idx → EReal) : S16x1024x512.Idx → EReal :=
  shapeCast S16x1024x512 (transpose S16x32x32x512 [0, 2, 3, 1] a0 transposes_S16x512x32x32_S16x32x32x512_0_2_3_1)
    shapeCasts_S16x32x32x512_S16x1024x512

/-- Back to an image with channels first. -/
def image (y : S16x1024x512.Idx → EReal) : S16x512x32x32.Idx → EReal :=
  transpose S16x512x32x32 [0, 3, 1, 2] (shapeCast S16x32x32x512 y shapeCasts_S16x1024x512_S16x32x32x512)
    transposes_S16x32x32x512_S16x512x32x32_0_3_1_2

/-- What the body leaves in the output's buffer: the eight heads over the loaded blocks' projection, summed. -/
theorem out_eq (x0 : Vec Ideal S1x1024x512 .f32) (x1 : Vec Ideal S1536x512 .f32) (x2 : Vec Ideal S512x512 .f32) :
    out0_3 x0 x1 x2 = shapeCast S1x1024x512 (accV (k0_pay3 x0 x1) (k0_pay2 x2)) shapeCasts_S1024x512_S1x1024x512 := by
  unfold out0_3
  rw [View.canon_unit_zero hz3]
  simp only [View.ld_unit_zero (S := S1x1024x512) hz3, View.ld_unit_zero (S := S1536x512) hz2, View.ld_unit_zero (S := S512x512) hz2]
  exact stored_eq x0 x1 x2

/-- The printed index maps over the grid: the token window and the result window move with the point along the batch
    axis; the weights' windows stay. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch element of a grid point. -/
def batchOf (t : Fin cfg0.N) : Fin 16 := ⟨t.val, lt_of_lt_of_eq t.isLt (show cfg0.N = 16 from N_0)⟩

/-- The token block at point t is batch element t of the token array. -/
theorem iblk0_apply (c : Dev nD) (t : Fin cfg0.N) (s : Fin 1024) (cc : Fin 512) :
    (iblk m c 0 t : Vec Ideal S1x1024x512 .f32) (ix3 0 s cc)
      = (V m c main_v1 : S16x1024x512.Idx → EReal) (ix3 (batchOf t) s cc) := by
  obtain ⟨e0, e1, e2, -⟩ := idx_facts t
  unfold iblk
  rw [View.read_apply]
  show V m c main_v1 _ = V m c main_v1 _
  congr 1
  funext a
  apply Fin.ext
  match a with
  | ⟨0, _⟩ => show win0_0.index t 0 * 1 + 1 * 0 = t.val; rw [e0]; omega
  | ⟨1, _⟩ => show win0_0.index t 1 * 1024 + 1 * s.val = s.val; rw [e1]; omega
  | ⟨2, _⟩ => show win0_0.index t 2 * 512 + 1 * cc.val = cc.val; rw [e2]; omega

/-- The weights' blocks are the weights. -/
theorem iblk1_eq (c : Dev nD) (t : Fin cfg0.N) : (iblk m c 1 t : Vec Ideal S1536x512 .f32) = V m c main_arg1 := by
  obtain ⟨-, -, -, e0, e1, -⟩ := idx_facts t
  funext y
  unfold iblk
  rw [View.read_apply]
  show V m c main_arg1 _ = V m c main_arg1 y
  congr 1
  funext a
  apply Fin.ext
  match a with
  | ⟨0, _⟩ => show win0_1.index t 0 * 1536 + 1 * (y 0).val = (y 0).val; rw [e0]; omega
  | ⟨1, _⟩ => show win0_1.index t 1 * 512 + 1 * (y 1).val = (y 1).val; rw [e1]; omega

theorem iblk2_eq (c : Dev nD) (t : Fin cfg0.N) : (iblk m c 2 t : Vec Ideal S512x512 .f32) = V m c main_arg2 := by
  obtain ⟨-, -, -, -, -, e0, e1, -⟩ := idx_facts t
  funext y
  unfold iblk
  rw [View.read_apply]
  show V m c main_arg2 _ = V m c main_arg2 y
  congr 1
  funext a
  apply Fin.ext
  match a with
  | ⟨0, _⟩ => show win0_2.index t 0 * 512 + 1 * (y 0).val = (y 0).val; rw [e0]; omega
  | ⟨1, _⟩ => show win0_2.index t 1 * 512 + 1 * (y 1).val = (y 1).val; rw [e1]; omega

/-- A stored block whose token block is batch element b of an array X is the layer of X at that batch element. -/
theorem block_attn (x0 : Vec Ideal S1x1024x512 .f32) (x1 : Vec Ideal S1536x512 .f32) (x2 : Vec Ideal S512x512 .f32)
    (X : S16x1024x512.Idx → EReal) (b : Fin 16) (hx : ∀ s c, x0 (ix3 0 s c) = X (ix3 b s c))
    (j : S1x1024x512.Idx) (i : S16x1024x512.Idx) (h0 : (i 0).val = b.val) (h1 : (i 1).val = (j 1).val) (h2 : (i 2).val = (j 2).val) :
    shapeCast S1x1024x512 (accV (k0_pay3 x0 x1) (k0_pay2 x2)) shapeCasts_S1024x512_S1x1024x512 j = attn X x1 x2 i := by
  obtain ⟨a, s, d, rfl⟩ : ∃ (a : Fin 1) (s : Fin 1024) (d : Fin 512), j = ix3 a s d := ⟨j 0, j 1, j 2, eq_ix3 j⟩
  obtain ⟨b', s', d', rfl⟩ : ∃ (b' : Fin 16) (s' : Fin 1024) (d' : Fin 512), i = ix3 b' s' d' := ⟨i 0, i 1, i 2, eq_ix3 i⟩
  obtain rfl : a = 0 := Subsingleton.elim _ _
  obtain rfl : b' = b := Fin.ext h0
  obtain rfl : s' = s := Fin.ext h1
  obtain rfl : d' = d := Fin.ext h2
  rw [stored_apply, attn_apply]
  exact congrArg (fun X' : Fin 1024 → Fin 512 → EReal => attnBlock X' x1 x2 s' d') (funext fun s => funext fun c => hx s c)

/-- The call's result array after the run. -/
abbrev G (c : Dev nD) : S16x1024x512.Idx → EReal := attn (V m c main_v1) (V m c main_arg1) (V m c main_arg2)

/-- What point t writes back is block t of the layer's result. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, out_eq, iblk1_eq, iblk2_eq]
  obtain ⟨-, -, -, -, -, -, -, e0, e1, e2⟩ := idx_facts t
  funext j
  show shapeCast S1x1024x512 (accV (k0_pay3 (iblk m c 0 t) (V m c main_arg1)) (k0_pay2 (V m c main_arg2))) shapeCasts_S1024x512_S1x1024x512 j
    = G m c (((cfg0.win 3).blk t).view.emb j)
  have hj0 : (j 0).val < 1 := (j 0).isLt
  refine block_attn (iblk m c 0 t) (V m c main_arg1) (V m c main_arg2) (V m c main_v1) (batchOf t) (iblk0_apply m c t) j _ ?_ ?_ ?_
  · show win0_3.index t (0 : Fin 3) * 1 + 1 * (j 0).val = t.val; omega
  · show win0_3.index t (1 : Fin 3) * 1024 + 1 * (j 1).val = (j 1).val; omega
  · show win0_3.index t (2 : Fin 3) * 512 + 1 * (j 2).val = (j 2).val; omega

/-- An index is in point t's block iff each coordinate is in the block's range on its axis. -/
theorem mem_blk (t : Fin cfg0.N) (i : S16x1024x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v2).slice (win0_3.rect t)).set ↔ _
  rw [View.set_slice_whole, Rect.mem_set_unit]
  exact Iff.rfl

/-- The blocks tile the array (index (b, s, d) is in point b's block), so it ends at the layer's result. -/
theorem final (c : Dev nD) : (dats m 0 c).arrAt 3 cfg0.N = G m c :=
  (dats m 0 c).arrAt_eq_of_cover 3 (G m c) (fun t _ => flushed_eq m c t) fun i => by
    have hi0 : (i 0).val < 16 := (i 0).isLt
    have hi1 : (i 1).val < 1024 := (i 1).isLt
    have hi2 : (i 2).val < 512 := (i 2).isLt
    obtain ⟨t, ht⟩ : ∃ t : Fin cfg0.N, t.val = (i 0).val := ⟨⟨(i 0).val, by rw [show cfg0.N = 16 from N_0]; exact hi0⟩, rfl⟩
    obtain ⟨-, -, -, -, -, -, -, e0, e1, e2⟩ := idx_facts t
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 512 ≤ (i 2).val ∧ (i 2).val < win0_3.index t (2 : Fin 3) * 512 + 512; omega

/-- The token array the region finds: the host's transpose and reshape of the image. -/
theorem V_main_v1 (c : Dev nD) : (V m c main_v1 : S16x1024x512.Idx → EReal) = tokens (m ((c : Thread nD τ).loc main_arg0)) := by
  show StableHlo.after hostOps0 (fun b => m (c, b)) (Proc.devRef .tc main_v1) = _
  after_results
  rfl

/-- The result buffer after the host's last two operations: the image of the call's result array. -/
theorem tail_eq (c : Dev nD) :
    Pipeline.afterTail₀ cfgs (dats m) 0 (V0 m) [hostOps1] c main_v4 = image (G m c) := by
  unfold Pipeline.afterTail₀
  show StableHlo.after hostOps1 _ (Proc.devRef .tc main_v4) = _
  after_results
  have hw := (Pipeline.withArrays_arr spec0 launch0.win.arr_inj c (V0 m c) (fun w => (dats m 0 c).arrAt w cfg0.N) 3).trans (final m c)
  rw [← hw]
  rfl

/-- The run, read: the result buffer ends at the image of the layer of the tokens, the arguments unchanged. -/
theorem run : θ_run defs (onTc (τ := τ) (main (F := Ideal))) ⟨m, fun _ => 0, ρ⟩ fun r => ∀ c : Dev nD,
      r.2.mem ((c.tc : Thread nD τ).loc main_v4)
        = image (attn (tokens (m ((c.tc : Thread nD τ).loc main_arg0))) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v4 (Pipeline.mem_restRefs_of main_v4 (by decide) (by decide))).trans ((tail_eq m c).trans (by
        show image (attn (V m c main_v1) (V m c main_arg1) (V m c main_arg2)) = _
        rw [V_main_v1, V_main_arg1, V_main_arg2])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Attn.Kernel

end
-- ==== Proof.LibSumRows.lean ====
/-
  Finite sums in a commutative monoid, re-indexed.

  `sum_fin_rows`: a sum over `n = a * b` consecutive positions is the sum over `a` rows of `b` entries, position
  `b * i + j` being entry `j` of row `i` (the statement takes the summand of the double sum and an equation per
  position, so no cast of an index appears in it). `sum_idx1`, `sum_idx3`: a sum over the indices of a rank-1 or
  rank-3 shape is the sum over its coordinates (the rank-2 form is the library's `ValueIdx.sum_idx2`).
-/
import Idealize.ShloMosaic.Lib.ValueIdx

open scoped BigOperators

namespace Cert.LibSumRows

variable {M : Type*} [AddCommMonoid M]

/-- A sum over `n = a * b` positions is the sum over `a` rows of `b`: position `b * i + j` is entry `j` of row `i`. -/
theorem sum_fin_rows {n a b : ℕ} (hn : n = a * b) (F : Fin n → M) (G : Fin a → Fin b → M)
    (hG : ∀ (i : Fin a) (j : Fin b) (h : b * i.val + j.val < n), F ⟨b * i.val + j.val, h⟩ = G i j) :
    ∑ k, F k = ∑ i, ∑ j, G i j := by
  subst hn
  rw [← finProdFinEquiv.sum_comp, Fintype.sum_prod_type]
  refine Finset.sum_congr rfl fun i _ => Finset.sum_congr rfl fun j _ => ?_
  have e : finProdFinEquiv (i, j) = ⟨b * i.val + j.val, (finProdFinEquiv (i, j)).isLt.trans_eq' (by
      simp [finProdFinEquiv, Nat.add_comm])⟩ := Fin.ext (by simp [finProdFinEquiv, Nat.add_comm])
  rw [e]
  exact hG i j _

open Idealize.ShloMosaic Idealize.ShloMosaic.ValueIdx in
/-- A sum over a rank-1 index set is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

open Idealize.ShloMosaic Idealize.ShloMosaic.ValueIdx in
/-- A sum over a rank-3 index set is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

end Cert.LibSumRows
-- ==== Proof.LibReduceLastAxis.lean ====
/-
  The host's maximum over the last axis of a rank-4 array, read at an index, at the ideal values.

  Reducing an [n0, n1, n2, n3] array over its last axis leaves an [n0, n1, n2] array. Putting a coordinate `l` back on the
  dropped axis of the index (a, b, c) gives (a, b, c, l), so the host's reduction with `max`, read at (a, b, c), is the fold
  of `max` from the initial value over the n3 entries (a, b, c, l), in any order. This is the batched form of a row maximum:
  one maximum per batch element, head and row of a [batch, heads, rows, columns] array of attention logits.
-/
import Idealize.ShloMosaic.PureOps.Ideal.Laws
import Idealize.ShloMosaic.Lib.ValueIdx

noncomputable section

namespace Idealize.ShloMosaic.ReduceLastAxis

open Idealize.ShloMosaic Idealize.ShloMosaic.ValueIdx

/-- The index over (a, b, c) with `l` put on the dropped last axis is (a, b, c, l). -/
theorem lift_last4 {n0 n1 n2 n3 : ℕ} (h : (⟨4, ![n0, n1, n2, n3]⟩ : Shape).Reduces [3] ⟨3, ![n0, n1, n2]⟩)
    (a : Fin n0) (b : Fin n1) (c : Fin n2) (l : Fin n3) : h.lift (ix3 a b c) l = ix4 a b c l := by
  funext ax; apply Fin.ext
  match ax with
  | ⟨0, _⟩ => rfl
  | ⟨1, _⟩ => rfl
  | ⟨2, _⟩ => rfl
  | ⟨3, _⟩ => rfl

/-- The host's maximum over the last axis of a rank-4 array, read at (a, b, c): the fold of `max`, from the initial value,
    over the entries (a, b, c, l). -/
theorem hostReduce_maximumf_last4 {n0 n1 n2 n3 : ℕ} {φ : FTy} {u : Shape} (x : (⟨4, ![n0, n1, n2, n3]⟩ : Shape).Idx → Ideal φ)
    (init : u.Idx → Ideal φ) (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel) (a : Fin n0) (b : Fin n1) (c : Fin n2) :
    Host.reduce (FloatOps.maximumf (F := Ideal) (φ := φ)) x init h' hu (ix3 a b c)
      = (Finset.univ : Finset (Fin n3)).fold max (init (Shape.Idx.first hu)) (fun l => x (ix4 a b c l)) := by
  refine (Host.reduce_eq_fold_single (FloatOps.maximumf (F := Ideal) (φ := φ)) x init h' h hu (ix3 a b c)).trans ?_
  show (Finset.univ : Finset (Fin n3)).fold max (init (Shape.Idx.first hu)) (fun l => x (h.lift (ix3 a b c) l)) = _
  exact congrArg (fun f : Fin n3 → EReal => (Finset.univ : Finset (Fin n3)).fold max (init (Shape.Idx.first hu)) f)
    (funext fun l => congrArg x (lift_last4 h a b c l))

end Idealize.ShloMosaic.ReduceLastAxis

end
-- ==== Proof.RefValue.lean ====
/-
  The reference's result as the attention layer of its arguments.

  The reference moves the image's channels last and flattens its pixels into the token array, multiplies the tokens with
  the fused weight, and views the 1536 columns as 3 × 8 × 64: which of query, key, value; which head; which coordinate.
  Each third is cut out, its unit axis dropped, and heads moved in front of tokens. Per batch element and head it forms
  the scaled logits, their row maxima from −∞, the shifted exponentials, the row sums from zero, the weights, and the
  head's output; the heads' outputs are laid side by side again (column 64h + j) and multiplied with the out-projection
  weight. Each stage is read here at explicit coordinates as the matching piece of the specification; the last product,
  a sum over 512 columns, is the sum over 8 heads of 64 coordinates.
-/
import proofs.«118763_j15118284882388_1_alg».proof.Proof.Gen.ReferenceIdeal.Read
import proofs.«118763_j15118284882388_1_alg».proof.Proof.AttnSpec
import proofs.«118763_j15118284882388_1_alg».proof.Proof.LibSumRows
import proofs.«118763_j15118284882388_1_alg».proof.Proof.LibReduceLastAxis
import Idealize.ShloMosaic.Lib.Pipeline.Value
import Idealize.ShloMosaic.Lib.ValueIdx
import Idealize.ShloMosaic.PureOps.Ideal.Laws

noncomputable section

namespace Cert.Attn.Ref

open Idealize.ShloMosaic Idealize.ShloMosaic.ValueIdx Cert.ReferenceIdeal Cert.ReferenceIdeal.Gen Cert.ReferenceIdeal.Read Cert.Attn
open Idealize.ShloMosaic.ReduceLastAxis (hostReduce_maximumf_last4)

abbrev A0 := (⟨S16x512x32x32, .f32⟩ : BufTy).Contents (Elt Ideal)
abbrev A1 := (⟨S1536x512, .f32⟩ : BufTy).Contents (Elt Ideal)
abbrev A2 := (⟨S512x512, .f32⟩ : BufTy).Contents (Elt Ideal)

variable (a0 : A0) (a1 : A1) (a2 : A2)

/-- Batch element `b`'s fused projection, from the reference's token array. -/
abbrev proj (b : Fin 16) : Fin 1024 → Fin 1536 → EReal :=
  qkvRow (fun s c => val_main_v1 (F := Ideal) a0 (ix3 b s c)) a1

theorem v2_at (b : Fin 16) (s : Fin 1024) (d : Fin 1536) :
    val_main_v2 (F := Ideal) a0 a1 (ix3 b s d) = proj a0 a1 b s d := by
  rw [val_main_v2_apply]
  show _ = ∑ c : Fin 512, val_main_v1 (F := Ideal) a0 (ix3 b s c) * a1 (ix2 d c)
  refine Finset.sum_congr rfl fun k _ => ?_
  have el : lidx_main_v2 (ix3 b s d) k = ix3 b s k := funext fun a => Fin.ext (by
    match a with | ⟨0, _⟩ => rfl | ⟨1, _⟩ => rfl | ⟨2, _⟩ => rfl)
  have er : ridx_main_v2 (ix3 b s d) k = ix2 d k := funext fun a => Fin.ext (by
    match a with | ⟨0, _⟩ => rfl | ⟨1, _⟩ => rfl)
  rw [el, er]

/-- The projection's columns viewed as 3 × 8 × 64: entry (g, h, e) is column 512g + 64h + e. -/
theorem v3_at (b : Fin 16) (s : Fin 1024) (g : Fin 3) (h : Fin 8) (e : Fin 64) (col : Fin 1536)
    (hc : col.val = 512 * g.val + (64 * h.val + e.val)) :
    val_main_v3 (F := Ideal) a0 a1 (ix5 b s g h e) = proj a0 a1 b s col := by
  rw [← v2_at]
  unfold val_main_v3
  refine shapeCast_apply _ _ (ix5 b s g h e) (ix3 b s col) ?_
  rw [Shape.rowMajor_val_three, Shape.rowMajor_val_five]
  show (b.val * 1024 + s.val) * 1536 + col.val = (((b.val * 1024 + s.val) * 3 + g.val) * 8 + h.val) * 64 + e.val
  omega

/-- The q columns of head `h`: third 0 of the projection's columns, cut, squeezed and with heads moved in front of tokens. -/
theorem q_at (b : Fin 16) (h : Fin 8) (s : Fin 1024) (e : Fin 64) :
    val_main_v6 (F := Ideal) a0 a1 (ix4 b h s e) = proj a0 a1 b s (colQ h e) := by
  rw [val_main_v6_apply]
  have e6 : idx_main_v6 (ix4 b h s e) = ix4 b s h e := funext fun a => Fin.ext (by
    match a with | ⟨0, _⟩ => rfl | ⟨1, _⟩ => rfl | ⟨2, _⟩ => rfl | ⟨3, _⟩ => rfl)
  rw [e6]
  have e5 : val_main_v5 (F := Ideal) a0 a1 (ix4 b s h e) = val_main_v4 (F := Ideal) a0 a1 (ix5 b s (0 : Fin 1) h e) := by
    unfold val_main_v5
    refine shapeCast_apply _ _ (ix4 b s h e) (ix5 b s (0 : Fin 1) h e) ?_
    rw [Shape.rowMajor_val_four, Shape.rowMajor_val_five]
    show (((b.val * 1024 + s.val) * 1 + 0) * 8 + h.val) * 64 + e.val = ((b.val * 1024 + s.val) * 8 + h.val) * 64 + e.val
    omega
  rw [e5, val_main_v4_apply]
  have e4 : idx_main_v4 (ix5 b s (0 : Fin 1) h e) = ix5 b s (0 : Fin 3) h e := funext fun a => Fin.ext (by
    match a with | ⟨0, _⟩ => rfl | ⟨1, _⟩ => rfl | ⟨2, _⟩ => rfl | ⟨3, _⟩ => rfl | ⟨4, _⟩ => rfl)
  rw [e4]
  exact v3_at a0 a1 b s 0 h e (colQ h e) (by show 64 * h.val + e.val = 512 * 0 + (64 * h.val + e.val); omega)

/-- The k columns of head `h`: third 1 of the projection's columns, cut, squeezed and with heads moved in front of tokens. -/
theorem k_at (b : Fin 16) (h : Fin 8) (s : Fin 1024) (e : Fin 64) :
    val_main_v9 (F := Ideal) a0 a1 (ix4 b h s e) = proj a0 a1 b s (colK h e) := by
  rw [val_main_v9_apply]
  have e6 : idx_main_v9 (ix4 b h s e) = ix4 b s h e := funext fun a => Fin.ext (by
    match a with | ⟨0, _⟩ => rfl | ⟨1, _⟩ => rfl | ⟨2, _⟩ => rfl | ⟨3, _⟩ => rfl)
  rw [e6]
  have e5 : val_main_v8 (F := Ideal) a0 a1 (ix4 b s h e) = val_main_v7 (F := Ideal) a0 a1 (ix5 b s (0 : Fin 1) h e) := by
    unfold val_main_v8
    refine shapeCast_apply _ _ (ix4 b s h e) (ix5 b s (0 : Fin 1) h e) ?_
    rw [Shape.rowMajor_val_four, Shape.rowMajor_val_five]
    show (((b.val * 1024 + s.val) * 1 + 0) * 8 + h.val) * 64 + e.val = ((b.val * 1024 + s.val) * 8 + h.val) * 64 + e.val
    omega
  rw [e5, val_main_v7_apply]
  have e4 : idx_main_v7 (ix5 b s (0 : Fin 1) h e) = ix5 b s (1 : Fin 3) h e := funext fun a => Fin.ext (by
    match a with | ⟨0, _⟩ => rfl | ⟨1, _⟩ => rfl | ⟨2, _⟩ => rfl | ⟨3, _⟩ => rfl | ⟨4, _⟩ => rfl)
  rw [e4]
  exact v3_at a0 a1 b s 1 h e (colK h e) (by show 512 + (64 * h.val + e.val) = 512 * 1 + (64 * h.val + e.val); omega)

/-- The v columns of head `h`: third 2 of the projection's columns, cut, squeezed and with heads moved in front of tokens. -/
theorem v_at (b : Fin 16) (h : Fin 8) (s : Fin 1024) (e : Fin 64) :
    val_main_v12 (F := Ideal) a0 a1 (ix4 b h s e) = proj a0 a1 b s (colV h e) := by
  rw [val_main_v12_apply]
  have e6 : idx_main_v12 (ix4 b h s e) = ix4 b s h e := funext fun a => Fin.ext (by
    match a with | ⟨0, _⟩ => rfl | ⟨1, _⟩ => rfl | ⟨2, _⟩ => rfl | ⟨3, _⟩ => rfl)
  rw [e6]
  have e5 : val_main_v11 (F := Ideal) a0 a1 (ix4 b s h e) = val_main_v10 (F := Ideal) a0 a1 (ix5 b s (0 : Fin 1) h e) := by
    unfold val_main_v11
    refine shapeCast_apply _ _ (ix4 b s h e) (ix5 b s (0 : Fin 1) h e) ?_
    rw [Shape.rowMajor_val_four, Shape.rowMajor_val_five]
    show (((b.val * 1024 + s.val) * 1 + 0) * 8 + h.val) * 64 + e.val = ((b.val * 1024 + s.val) * 8 + h.val) * 64 + e.val
    omega
  rw [e5, val_main_v10_apply]
  have e4 : idx_main_v10 (ix5 b s (0 : Fin 1) h e) = ix5 b s (2 : Fin 3) h e := funext fun a => Fin.ext (by
    match a with | ⟨0, _⟩ => rfl | ⟨1, _⟩ => rfl | ⟨2, _⟩ => rfl | ⟨3, _⟩ => rfl | ⟨4, _⟩ => rfl)
  rw [e4]
  exact v3_at a0 a1 b s 2 h e (colV h e) (by show 1024 + (64 * h.val + e.val) = 512 * 2 + (64 * h.val + e.val); omega)

/-- The query, key and value columns of batch element `b`, head `h`. -/
abbrev qOf (b : Fin 16) (h : Fin 8) : Fin 1024 → Fin 64 → EReal := fun s e => proj a0 a1 b s (colQ h e)
abbrev kOf (b : Fin 16) (h : Fin 8) : Fin 1024 → Fin 64 → EReal := fun t e => proj a0 a1 b t (colK h e)
abbrev vOf (b : Fin 16) (h : Fin 8) : Fin 1024 → Fin 64 → EReal := fun t e => proj a0 a1 b t (colV h e)

/-- The scaled logits. -/
theorem L_at (b : Fin 16) (h : Fin 8) (s t : Fin 1024) :
    val_main_v15 (F := Ideal) a0 a1 (ix4 b h s t) = logit (qOf a0 a1 b h) (kOf a0 a1 b h) s t := by
  rw [val_main_v15_apply, val_main_v13_apply, val_main_v14_apply]
  show (∑ k : Fin 64, val_main_v6 (F := Ideal) a0 a1 (lidx_main_v13 (ix4 b h s t) k) * val_main_v9 (F := Ideal) a0 a1 (ridx_main_v13 (ix4 b h s t) k)) * scale8
    = (∑ e : Fin 64, proj a0 a1 b s (colQ h e) * proj a0 a1 b t (colK h e)) * scale8
  refine congrArg (· * scale8) (Finset.sum_congr rfl fun k _ => ?_)
  have el : lidx_main_v13 (ix4 b h s t) k = ix4 b h s k := funext fun a => Fin.ext (by
    match a with | ⟨0, _⟩ => rfl | ⟨1, _⟩ => rfl | ⟨2, _⟩ => rfl | ⟨3, _⟩ => rfl)
  have er : ridx_main_v13 (ix4 b h s t) k = ix4 b h t k := funext fun a => Fin.ext (by
    match a with | ⟨0, _⟩ => rfl | ⟨1, _⟩ => rfl | ⟨2, _⟩ => rfl | ⟨3, _⟩ => rfl)
  rw [el, er, q_at, k_at]

/-- The row maxima. -/
theorem M_at (b : Fin 16) (h : Fin 8) (s : Fin 1024) :
    val_main_v18 (F := Ideal) a0 a1 (ix3 b h s) = rowMax (logit (qOf a0 a1 b h) (kOf a0 a1 b h) s) := by
  rw [val_main_v18_apply, val_main_v17_apply]
  unfold val_main_v16
  rw [hostReduce_maximumf_last4 _ _ reducesTo_S16x8x1024x1024_S16x8x1024_d3 (by decide) h_S_ b h s]
  show max negInf ((Finset.univ : Finset (Fin 1024)).fold max negInf (fun t => val_main_v15 (F := Ideal) a0 a1 (ix4 b h s t))) = _
  unfold rowMax
  exact congrArg (fun f : Fin 1024 → EReal => max negInf ((Finset.univ : Finset (Fin 1024)).fold max negInf f))
    (funext fun t => L_at a0 a1 b h s t)

/-- The shifted exponentials. -/
theorem E_at (b : Fin 16) (h : Fin 8) (s t : Fin 1024) :
    val_main_v22 (F := Ideal) a0 a1 (ix4 b h s t) = expo (logit (qOf a0 a1 b h) (kOf a0 a1 b h) s) t := by
  rw [val_main_v22_apply, val_main_v21_apply, val_main_v20_apply, val_main_v19_apply]
  have e20 : idx_main_v19 (idx_main_v20 (ix4 b h s t)) = ix3 b h s := funext fun a => Fin.ext (by
    match a with | ⟨0, _⟩ => rfl | ⟨1, _⟩ => rfl | ⟨2, _⟩ => rfl)
  rw [e20, M_at, L_at]
  rfl

/-- The row sums. -/
theorem S_at (b : Fin 16) (h : Fin 8) (s : Fin 1024) :
    val_main_v23 (F := Ideal) a0 a1 (ix3 b h s) = ∑ t : Fin 1024, expo (logit (qOf a0 a1 b h) (kOf a0 a1 b h) s) t := by
  rw [val_main_v23_apply]
  show Ideal.ofBits .f32 0x00000000#32 + _ = _
  rw [Ideal.ofBits_zero_f32, zero_add]
  refine Finset.sum_congr rfl fun t _ => ?_
  have e : idx_main_v23 (ix3 b h s) t = ix4 b h s t := funext fun a => Fin.ext (by
    match a with | ⟨0, _⟩ => rfl | ⟨1, _⟩ => rfl | ⟨2, _⟩ => rfl | ⟨3, _⟩ => rfl)
  rw [e, E_at]

/-- The softmax weights. -/
theorem P_at (b : Fin 16) (h : Fin 8) (s t : Fin 1024) :
    val_main_v26 (F := Ideal) a0 a1 (ix4 b h s t) = prob (logit (qOf a0 a1 b h) (kOf a0 a1 b h) s) t := by
  rw [val_main_v26_apply, val_main_v25_apply, val_main_v24_apply]
  have e : idx_main_v24 (idx_main_v25 (ix4 b h s t)) = ix3 b h s := funext fun a => Fin.ext (by
    match a with | ⟨0, _⟩ => rfl | ⟨1, _⟩ => rfl | ⟨2, _⟩ => rfl)
  rw [e, S_at, E_at]
  rfl

/-- A head's output. -/
theorem O_at (b : Fin 16) (h : Fin 8) (s : Fin 1024) (j : Fin 64) :
    val_main_v27 (F := Ideal) a0 a1 (ix4 b h s j) = headOf (proj a0 a1 b) h s j := by
  rw [val_main_v27_apply]
  show _ = ∑ t : Fin 1024, prob (logit (qOf a0 a1 b h) (kOf a0 a1 b h) s) t * proj a0 a1 b t (colV h j)
  refine Finset.sum_congr rfl fun t _ => ?_
  have el : lidx_main_v27 (ix4 b h s j) t = ix4 b h s t := funext fun a => Fin.ext (by
    match a with | ⟨0, _⟩ => rfl | ⟨1, _⟩ => rfl | ⟨2, _⟩ => rfl | ⟨3, _⟩ => rfl)
  have er : ridx_main_v27 (ix4 b h s j) t = ix4 b h t j := funext fun a => Fin.ext (by
    match a with | ⟨0, _⟩ => rfl | ⟨1, _⟩ => rfl | ⟨2, _⟩ => rfl | ⟨3, _⟩ => rfl)
  rw [el, er, P_at, v_at]

/-- The heads' outputs side by side: column 64h + j of the [16, 1024, 512] array is coordinate j of head h. -/
theorem o_at (b : Fin 16) (s : Fin 1024) (h : Fin 8) (j : Fin 64) (c : Fin 512) (hc : c.val = 64 * h.val + j.val) :
    val_main_v29 (F := Ideal) a0 a1 (ix3 b s c) = headOf (proj a0 a1 b) h s j := by
  rw [← O_at]
  have e29 : val_main_v29 (F := Ideal) a0 a1 (ix3 b s c) = val_main_v28 (F := Ideal) a0 a1 (ix4 b s h j) := by
    unfold val_main_v29
    refine shapeCast_apply _ _ (ix3 b s c) (ix4 b s h j) ?_
    rw [Shape.rowMajor_val_four, Shape.rowMajor_val_three]
    show ((b.val * 1024 + s.val) * 8 + h.val) * 64 + j.val = (b.val * 1024 + s.val) * 512 + c.val
    omega
  rw [e29, val_main_v28_apply]
  exact congrArg (val_main_v27 (F := Ideal) a0 a1) (funext fun a => Fin.ext (by
    match a with | ⟨0, _⟩ => rfl | ⟨1, _⟩ => rfl | ⟨2, _⟩ => rfl | ⟨3, _⟩ => rfl))

/-- The out-projection's result is the layer of the token array. -/
theorem v30_eq : val_main_v30 (F := Ideal) a0 a1 a2 = attn (val_main_v1 (F := Ideal) a0) a1 a2 := by
  funext i
  obtain ⟨b, s, d, rfl⟩ : ∃ (b : Fin 16) (s : Fin 1024) (d : Fin 512), i = ix3 b s d := ⟨i 0, i 1, i 2, eq_ix3 i⟩
  rw [val_main_v30_apply, attn_apply]
  show _ = ∑ h : Fin 8, ∑ j : Fin 64, headOf (proj a0 a1 b) h s j * a2 (ix2 d (colO h j))
  refine Cert.LibSumRows.sum_fin_rows (by norm_num : 512 = 8 * 64) _ _ fun h j hlt => ?_
  have el : lidx_main_v30 (ix3 b s d) ⟨64 * h.val + j.val, hlt⟩ = ix3 b s (colO h j) := funext fun a => Fin.ext (by
    match a with | ⟨0, _⟩ => rfl | ⟨1, _⟩ => rfl | ⟨2, _⟩ => rfl)
  have er : ridx_main_v30 (ix3 b s d) ⟨64 * h.val + j.val, hlt⟩ = ix2 d (colO h j) := funext fun a => Fin.ext (by
    match a with | ⟨0, _⟩ => rfl | ⟨1, _⟩ => rfl)
  rw [el, er, o_at a0 a1 b s h j (colO h j) rfl]

/-- The image with channels last and pixels flattened: the token array. -/
def tokens (x : A0) : (⟨S16x1024x512, .f32⟩ : BufTy).Contents (Elt Ideal) :=
  shapeCast S16x1024x512 (transpose S16x32x32x512 [0, 2, 3, 1] x transposes_S16x512x32x32_S16x32x32x512_0_2_3_1)
    shapeCasts_S16x32x32x512_S16x1024x512

/-- Back to an image with channels first. -/
def image (y : (⟨S16x1024x512, .f32⟩ : BufTy).Contents (Elt Ideal)) : (⟨S16x512x32x32, .f32⟩ : BufTy).Contents (Elt Ideal) :=
  transpose S16x512x32x32 [0, 3, 1, 2] (shapeCast S16x32x32x512 y shapeCasts_S16x1024x512_S16x32x32x512)
    transposes_S16x32x32x512_S16x512x32x32_0_3_1_2

/-- The reference's result: the image of the layer of the tokens. -/
theorem result_eq : val_main_v32 (F := Ideal) a0 a1 a2 = image (attn (tokens a0) a1 a2) := by
  unfold val_main_v32 val_main_v31
  rw [v30_eq]
  rfl

end Cert.Attn.Ref

end
-- ==== Proof.lean ====
/-
  A fused multi-head self-attention kernel against its jnp reference, over the extended reals.

  Both programs turn an image [16, 512, 32, 32] into 1024 tokens of 512 channels per batch element, project the tokens
  onto 1536 columns with the fused weight, split the columns into queries, keys and values of 8 heads of 64 coordinates,
  form per head the softmax of the scaled logits (q·kᵀ)/8 — shifted by the row maximum taken from −∞, exponentiated,
  divided by the row sum — apply it to the values, project the heads' outputs with the second weight, and put the
  channels first again. The kernel does this for one batch element per grid point, takes every head's columns as slices
  of one product, and adds the heads' contributions (P_h·v_h)·Wout[:, 64h … 64h+63]ᵀ one after the other onto zero; the
  reference batches over elements and heads and multiplies the heads' outputs, laid side by side, with the whole weight.
  At the ideal values a change of float format is nothing and each product is the sum over its contracted coordinate,
  so the two results differ only in how the last sum over 512 columns is grouped: as 8 heads of 64. Addition on the
  extended reals is commutative and associative, so no finiteness of the inputs is used.

  The kernel's run is read off the generated frame (the block each grid point writes back, the blocks tiling the
  result); the reference's off its generated run, stage by stage. The ideal pass rewrote nothing, so the idealized
  kernel is the kernel's own text and that conjunct is trivial.
-/
import proofs.«118763_j15118284882388_1_alg».proof.Defs
import proofs.«118763_j15118284882388_1_alg».proof.Proof.Gen.Kernel
import proofs.«118763_j15118284882388_1_alg».proof.Proof.Gen.Kernel.Skeleton
import proofs.«118763_j15118284882388_1_alg».proof.Proof.Gen.Kernel.Launch
import proofs.«118763_j15118284882388_1_alg».proof.Proof.Gen.Kernel.Points
import proofs.«118763_j15118284882388_1_alg».proof.Proof.Gen.Kernel.Frame
import proofs.«118763_j15118284882388_1_alg».proof.Proof.Gen.KernelIdeal
import proofs.«118763_j15118284882388_1_alg».proof.Proof.Gen.KernelIdeal.Skeleton
import proofs.«118763_j15118284882388_1_alg».proof.Proof.Gen.KernelIdeal.Launch
import proofs.«118763_j15118284882388_1_alg».proof.Proof.Gen.KernelIdeal.Points
import proofs.«118763_j15118284882388_1_alg».proof.Proof.Gen.KernelIdeal.Frame
import proofs.«118763_j15118284882388_1_alg».proof.Proof.Gen.ReferenceIdeal
import proofs.«118763_j15118284882388_1_alg».proof.Proof.Gen.ReferenceIdeal.Run
import proofs.«118763_j15118284882388_1_alg».proof.Proof.Gen.ReferenceIdeal.Read
import proofs.«118763_j15118284882388_1_alg».proof.Proof.Gen.Pre_finite_inputs
import proofs.«118763_j15118284882388_1_alg».proof.Proof.KernelRun
import proofs.«118763_j15118284882388_1_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the image of the attention layer of the
    tokens: the kernel by its blocks, the reference stage by stage. -/
theorem algebraic : Cert.algebraic_KernelIdeal_ReferenceIdeal := by
  intro m ρ m' ρ' _ hagree
  refine ⟨fun c => Cert.Attn.Kernel.image (Cert.Attn.attn
      (Cert.Attn.Kernel.tokens (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Attn.Ref.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
